-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S128x196 : Shape := ⟨2, ![128, 196]⟩
abbrev S768x768 : Shape := ⟨2, ![768, 768]⟩
abbrev S768 : Shape := ⟨1, ![768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S128x3x224x224 .f32) (main_arg1 : IVec S128x196 32) (main_arg2 : IVec S128x196 32) (main_arg3 : FVec F S768x768 .f32) (main_arg4 : FVec F S768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S128x3x224x224 : Shape := ⟨4, ![128, 3, 224, 224]⟩
abbrev S128x196 : Shape := ⟨2, ![128, 196]⟩
abbrev S768x768 : Shape := ⟨2, ![768, 768]⟩
abbrev S768 : Shape := ⟨1, ![768]⟩
abbrev S16 : Shape := ⟨1, ![16]⟩
abbrev S16x1 : Shape := ⟨2, ![16, 1]⟩
abbrev S1x16 : Shape := ⟨2, ![1, 16]⟩
abbrev S_ : Shape := ⟨0, ![]⟩
abbrev S16x16 : Shape := ⟨2, ![16, 16]⟩
abbrev S256 : Shape := ⟨1, ![256]⟩
abbrev S128x196x1 : Shape := ⟨3, ![128, 196, 1]⟩
abbrev S1x1x256 : Shape := ⟨3, ![1, 1, 256]⟩
abbrev S128x196x256 : Shape := ⟨3, ![128, 196, 256]⟩
abbrev S128x50176 : Shape := ⟨2, ![128, 50176]⟩
abbrev S128x3x50176 : Shape := ⟨3, ![128, 3, 50176]⟩
abbrev S128x1x50176 : Shape := ⟨3, ![128, 1, 50176]⟩
abbrev S128x50176x1 : Shape := ⟨3, ![128, 50176, 1]⟩
abbrev S1 : Shape := ⟨1, ![1]⟩
abbrev S1x1x1 : Shape := ⟨3, ![1, 1, 1]⟩
abbrev S128x3x196x256 : Shape := ⟨4, ![128, 3, 196, 256]⟩
abbrev S128x196x3x256 : Shape := ⟨4, ![128, 196, 3, 256]⟩
abbrev S128x196x768 : Shape := ⟨3, ![128, 196, 768]⟩
abbrev S25088x768 : Shape := ⟨2, ![25088, 768]⟩
abbrev S1x768 : Shape := ⟨2, ![1, 768]⟩
abbrev S1568x768 : Shape := ⟨2, ![1568, 768]⟩
abbrev S128x196x2 : Shape := ⟨3, ![128, 196, 2]⟩

abbrev nBuf : Space → Nat
  | .hbm => 62
  | .vmem => 6
  | .smem => 0
  | _ => 0

abbrev bufTy : (tb : Table) → Fin (tcTables nBuf tb) → BufTy
  | .hbm, ⟨0, _⟩ => ⟨S128x3x224x224, .f32⟩
  | .hbm, ⟨1, _⟩ => ⟨S128x196, .i32⟩
  | .hbm, ⟨2, _⟩ => ⟨S128x196, .i32⟩
  | .hbm, ⟨3, _⟩ => ⟨S768x768, .f32⟩
  | .hbm, ⟨4, _⟩ => ⟨S768, .f32⟩
  | .hbm, ⟨5, _⟩ => ⟨S16, .i32⟩
  | .hbm, ⟨6, _⟩ => ⟨S16x1, .i32⟩
  | .hbm, ⟨7, _⟩ => ⟨S16, .i32⟩
  | .hbm, ⟨8, _⟩ => ⟨S1x16, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S16x16, .i32⟩
  | .hbm, ⟨13, _⟩ => ⟨S16x16, .i32⟩
  | .hbm, ⟨14, _⟩ => ⟨S16x16, .i32⟩
  | .hbm, ⟨15, _⟩ => ⟨S256, .i32⟩
  | .hbm, ⟨16, _⟩ => ⟨S_, .i32⟩
  | .hbm, ⟨17, _⟩ => ⟨S128x196, .i32⟩
  | .hbm, ⟨18, _⟩ => ⟨S128x196, .i32⟩
  | .hbm, ⟨19, _⟩ => ⟨S128x196, .i32⟩
  | .hbm, ⟨20, _⟩ => ⟨S128x196x1, .i32⟩
  | .hbm, ⟨21, _⟩ => ⟨S1x1x256, .i32⟩
  | .hbm, ⟨22, _⟩ => ⟨S128x196x256, .i32⟩
  | .hbm, ⟨23, _⟩ => ⟨S128x196x256, .i32⟩
  | .hbm, ⟨24, _⟩ => ⟨S128x196x256, .i32⟩
  | .hbm, ⟨25, _⟩ => ⟨S128x50176, .i32⟩
  | .hbm, ⟨26, _⟩ => ⟨S128x3x50176, .f32⟩
  | .hbm, ⟨27, _⟩ => ⟨S128x1x50176, .i32⟩
  | .hbm, ⟨28, _⟩ => ⟨S_, .i32⟩
  | .hbm, ⟨29, _⟩ => ⟨S128x1x50176, .i32⟩
  | .hbm, ⟨30, _⟩ => ⟨S128x1x50176, .i1⟩
  | .hbm, ⟨31, _⟩ => ⟨S_, .i32⟩
  | .hbm, ⟨32, _⟩ => ⟨S128x1x50176, .i32⟩
  | .hbm, ⟨33, _⟩ => ⟨S128x1x50176, .i32⟩
  | .hbm, ⟨34, _⟩ => ⟨S128x1x50176, .i32⟩
  | .hbm, ⟨35, _⟩ => ⟨S128x50176x1, .i32⟩
  | .hbm, ⟨36, _⟩ => ⟨S1, .i32⟩
  | .hbm, ⟨37, _⟩ => ⟨S_, .i32⟩
  | .hbm, ⟨38, _⟩ => ⟨S128x50176x1, .i32⟩
  | .hbm, ⟨39, _⟩ => ⟨S128x50176x1, .i1⟩
  | .hbm, ⟨40, _⟩ => ⟨S1x1x1, .i32⟩
  | .hbm, ⟨41, _⟩ => ⟨S128x50176x1, .i32⟩
  | .hbm, ⟨42, _⟩ => ⟨S128x50176x1, .i1⟩
  | .hbm, ⟨43, _⟩ => ⟨S128x50176x1, .i1⟩
  | .hbm, ⟨44, _⟩ => ⟨S_, .i1⟩
  | .hbm, ⟨45, _⟩ => ⟨S128x50176, .i1⟩
  | .hbm, ⟨46, _⟩ => ⟨S128x3x50176, .f32⟩
  | .hbm, ⟨47, _⟩ => ⟨S128x3x50176, .i1⟩
  | .hbm, ⟨48, _⟩ => ⟨S_, .f32⟩
  | .hbm, ⟨49, _⟩ => ⟨S128x3x50176, .f32⟩
  | .hbm, ⟨50, _⟩ => ⟨S128x3x50176, .f32⟩
  | .hbm, ⟨51, _⟩ => ⟨S128x3x196x256, .f32⟩
  | .hbm, ⟨52, _⟩ => ⟨S128x196x3x256, .f32⟩
  | .hbm, ⟨53, _⟩ => ⟨S128x196x768, .f32⟩
  | .hbm, ⟨54, _⟩ => ⟨S25088x768, .f32⟩
  | .hbm, ⟨55, _⟩ => ⟨S768x768, .f32⟩
  | .hbm, ⟨56, _⟩ => ⟨S1x768, .f32⟩
  | .hbm, ⟨57, _⟩ => ⟨S25088x768, .f32⟩
  | .hbm, ⟨58, _⟩ => ⟨S128x196x768, .f32⟩
  | .hbm, ⟨59, _⟩ => ⟨S128x196x1, .i32⟩
  | .hbm, ⟨60, _⟩ => ⟨S128x196x1, .i32⟩
  | .hbm, ⟨61, _⟩ => ⟨S128x196x2, .i32⟩
  | .local _ .vmem, ⟨0, _⟩ => ⟨S1568x768, .f32⟩
  | .local _ .vmem, ⟨1, _⟩ => ⟨S1568x768, .f32⟩
  | .local _ .vmem, ⟨2, _⟩ => ⟨S768x768, .f32⟩
  | .local _ .vmem, ⟨3, _⟩ => ⟨S1x768, .f32⟩
  | .local _ .vmem, ⟨4, _⟩ => ⟨S1568x768, .f32⟩
  | .local _ .vmem, ⟨5, _⟩ => ⟨S1568x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1568x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S_S16x1 : S_.BroadcastsInDim S16x1 (![] : Fin 0 → Fin S16x1.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  shapeCasts_S16x16_S256 : S16x16.ShapeCasts S256
  bcast_S_S128x196 : S_.BroadcastsInDim S128x196 (![] : Fin 0 → Fin S128x196.rank)
  bcast_S128x196_S128x196x1_0_1 : S128x196.BroadcastsInDim S128x196x1 (![0, 1] : Fin 2 → Fin S128x196x1.rank)
  bcast_S256_S1x1x256_2 : S256.BroadcastsInDim S1x1x256 (![2] : Fin 1 → Fin S1x1x256.rank)
  bcast_S128x196x1_S128x196x256_0_1_2 : S128x196x1.BroadcastsInDim S128x196x256 (![0, 1, 2] : Fin 3 → Fin S128x196x256.rank)
  bcast_S1x1x256_S128x196x256_0_1_2 : S1x1x256.BroadcastsInDim S128x196x256 (![0, 1, 2] : Fin 3 → Fin S128x196x256.rank)
  shapeCasts_S128x196x256_S128x50176 : S128x196x256.ShapeCasts S128x50176
  shapeCasts_S128x3x224x224_S128x3x50176 : S128x3x224x224.ShapeCasts S128x3x50176
  bcast_S128x50176_S128x1x50176_0_2 : S128x50176.BroadcastsInDim S128x1x50176 (![0, 2] : Fin 2 → Fin S128x1x50176.rank)
  bcast_S_S128x1x50176 : S_.BroadcastsInDim S128x1x50176 (![] : Fin 0 → Fin S128x1x50176.rank)
  shapeCasts_S128x1x50176_S128x50176x1 : S128x1x50176.ShapeCasts S128x50176x1
  bcast_S_S128x50176x1 : S_.BroadcastsInDim S128x50176x1 (![] : Fin 0 → Fin S128x50176x1.rank)
  bcast_S1_S1x1x1_2 : S1.BroadcastsInDim S1x1x1 (![2] : Fin 1 → Fin S1x1x1.rank)
  bcast_S1x1x1_S128x50176x1_0_1_2 : S1x1x1.BroadcastsInDim S128x50176x1 (![0, 1, 2] : Fin 3 → Fin S128x50176x1.rank)
  reducesTo_S128x50176x1_S128x50176_d2 : S128x50176x1.ReducesTo [2] S128x50176
  h_S_ : 0 < S_.numel
  bcast_S128x50176_S128x3x50176_0_2 : S128x50176.BroadcastsInDim S128x3x50176 (![0, 2] : Fin 2 → Fin S128x3x50176.rank)
  bcast_S_S128x3x50176 : S_.BroadcastsInDim S128x3x50176 (![] : Fin 0 → Fin S128x3x50176.rank)
  shapeCasts_S128x3x50176_S128x3x196x256 : S128x3x50176.ShapeCasts S128x3x196x256
  transposes_S128x3x196x256_S128x196x3x256_0_2_1_3 : S128x3x196x256.Transposes [0, 2, 1, 3] S128x196x3x256
  shapeCasts_S128x196x3x256_S128x196x768 : S128x196x3x256.ShapeCasts S128x196x768
  shapeCasts_S128x196x768_S25088x768 : S128x196x768.ShapeCasts S25088x768
  transposes_S768x768_S768x768_1_0 : S768x768.Transposes [1, 0] S768x768
  shapeCasts_S768_S1x768 : S768.ShapeCasts S1x768
  inb_S1568x768_S1568x768_0_0 : ∀ a, (![0, 0] : Fin 2 → Nat) a + S1568x768.size a ≤ S1568x768.size a
  h_S1568x768 : 0 < S1568x768.numel
  shapeCasts_S1568x768_S1568x768 : S1568x768.ShapeCasts S1568x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1568x768 : S1x768.Broadcasts S1568x768
  shapeCasts_S25088x768_S128x196x768 : S25088x768.ShapeCasts S128x196x768
  concatenates_S128x196x1_S128x196x1_S128x196x2_d2 : Shape.Concatenates [S128x196x1, S128x196x1] S128x196x2 2
  gather_S128x3x50176_S128x50176x1_S128x3x50176_1_2_0_0_2_2_131_wf : GatherDims.WF S128x3x50176 S128x50176x1 S128x3x50176 [1] [2] [0] [2] [0] 2 ![1, 3, 1]
  dot_S1568x768_S768x768_S1568x768_1_0_0_1_n_n_wf : DotDims.WF S1568x768 S768x768 S1568x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x768.size a ≤ S25088x768.size a
  hwx0_0 : ∀ i : grid0.Coords, EltTy.bits .f32 = 32 ∨ (Rect.block (s := S25088x768) S1568x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1568x768.size a ≤ S25088x768.size a
  hwx0_3 : ∀ i : grid0.Coords, EltTy.bits .f32 = 32 ∨ (Rect.block (s := S25088x768) S1568x768.size (cc0_transform_3 i) (hinb0_3 i)).WholeWords (EltTy.packing .f32)

variable [Facts₀]

def gather_S128x3x50176_S128x50176x1_S128x3x50176_1_2_0_0_2_2_131 : GatherDims S128x3x50176 S128x50176x1 S128x3x50176 where
  offsetDims := [1]
  collapsedSliceDims := [2]
  operandBatchingDims := [0]
  startIndicesBatchingDims := [0]
  startIndexMap := [2]
  indexVectorDim := 2
  sliceSizes := ![1, 3, 1]
  wf := gather_S128x3x50176_S128x50176x1_S128x3x50176_1_2_0_0_2_2_131_wf
def dot_S1568x768_S768x768_S1568x768_1_0_0_1_n_n : DotDims S1568x768 S768x768 S1568x768 where
  lhsContracting := [1]
  rhsContracting := [0]
  lhsNonContracting := [0]
  rhsNonContracting := [1]
  lhsBatch := []
  rhsBatch := []
  wf := dot_S1568x768_S768x768_S1568x768_1_0_0_1_n_n_wf

abbrev win0_0 : Pipeline.Window sig grid0 :=
  Pipeline.Window.ofSpec (Memref.whole main_v25) S1568x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1568x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S128x196 : Shape := ⟨2, ![128, 196]⟩
abbrev S768x768 : Shape := ⟨2, ![768, 768]⟩
abbrev S768 : Shape := ⟨1, ![768]⟩
abbrev S16 : Shape := ⟨1, ![16]⟩
abbrev S16x1 : Shape := ⟨2, ![16, 1]⟩
abbrev S1x16 : Shape := ⟨2, ![1, 16]⟩
abbrev S_ : Shape := ⟨0, ![]⟩
abbrev S16x16 : Shape := ⟨2, ![16, 16]⟩
abbrev S256 : Shape := ⟨1, ![256]⟩
abbrev S128x196x1 : Shape := ⟨3, ![128, 196, 1]⟩
abbrev S1x1x256 : Shape := ⟨3, ![1, 1, 256]⟩
abbrev S128x196x256 : Shape := ⟨3, ![128, 196, 256]⟩
abbrev S128x50176 : Shape := ⟨2, ![128, 50176]⟩
abbrev S128x3x50176 : Shape := ⟨3, ![128, 3, 50176]⟩
abbrev S128x1x50176 : Shape := ⟨3, ![128, 1, 50176]⟩
abbrev S128x50176x1 : Shape := ⟨3, ![128, 50176, 1]⟩
abbrev S1 : Shape := ⟨1, ![1]⟩
abbrev S1x1x1 : Shape := ⟨3, ![1, 1, 1]⟩
abbrev S128x3x196x256 : Shape := ⟨4, ![128, 3, 196, 256]⟩
abbrev S128x196x3x256 : Shape := ⟨4, ![128, 196, 3, 256]⟩
abbrev S128x196x768 : Shape := ⟨3, ![128, 196, 768]⟩
abbrev S1x1x768 : Shape := ⟨3, ![1, 1, 768]⟩
abbrev S128x196x2 : Shape := ⟨3, ![128, 196, 2]⟩

abbrev nBuf : Space → Nat
  | .hbm => 61
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S128x196, .i32⟩
  | .hbm, ⟨2, _⟩ => ⟨S128x196, .i32⟩
  | .hbm, ⟨3, _⟩ => ⟨S768x768, .f32⟩
  | .hbm, ⟨4, _⟩ => ⟨S768, .f32⟩
  | .hbm, ⟨5, _⟩ => ⟨S16, .i32⟩
  | .hbm, ⟨6, _⟩ => ⟨S16x1, .i32⟩
  | .hbm, ⟨7, _⟩ => ⟨S16, .i32⟩
  | .hbm, ⟨8, _⟩ => ⟨S1x16, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S16x16, .i32⟩
  | .hbm, ⟨13, _⟩ => ⟨S16x16, .i32⟩
  | .hbm, ⟨14, _⟩ => ⟨S16x16, .i32⟩
  | .hbm, ⟨15, _⟩ => ⟨S256, .i32⟩
  | .hbm, ⟨16, _⟩ => ⟨S_, .i32⟩
  | .hbm, ⟨17, _⟩ => ⟨S128x196, .i32⟩
  | .hbm, ⟨18, _⟩ => ⟨S128x196, .i32⟩
  | .hbm, ⟨19, _⟩ => ⟨S128x196, .i32⟩
  | .hbm, ⟨20, _⟩ => ⟨S128x196x1, .i32⟩
  | .hbm, ⟨21, _⟩ => ⟨S1x1x256, .i32⟩
  | .hbm, ⟨22, _⟩ => ⟨S128x196x256, .i32⟩
  | .hbm, ⟨23, _⟩ => ⟨S128x196x256, .i32⟩
  | .hbm, ⟨24, _⟩ => ⟨S128x196x256, .i32⟩
  | .hbm, ⟨25, _⟩ => ⟨S128x50176, .i32⟩
  | .hbm, ⟨26, _⟩ => ⟨S128x3x50176, .f32⟩
  | .hbm, ⟨27, _⟩ => ⟨S128x1x50176, .i32⟩
  | .hbm, ⟨28, _⟩ => ⟨S_, .i32⟩
  | .hbm, ⟨29, _⟩ => ⟨S128x1x50176, .i32⟩
  | .hbm, ⟨30, _⟩ => ⟨S128x1x50176, .i1⟩
  | .hbm, ⟨31, _⟩ => ⟨S_, .i32⟩
  | .hbm, ⟨32, _⟩ => ⟨S128x1x50176, .i32⟩
  | .hbm, ⟨33, _⟩ => ⟨S128x1x50176, .i32⟩
  | .hbm, ⟨34, _⟩ => ⟨S128x1x50176, .i32⟩
  | .hbm, ⟨35, _⟩ => ⟨S128x50176x1, .i32⟩
  | .hbm, ⟨36, _⟩ => ⟨S1, .i32⟩
  | .hbm, ⟨37, _⟩ => ⟨S_, .i32⟩
  | .hbm, ⟨38, _⟩ => ⟨S128x50176x1, .i32⟩
  | .hbm, ⟨39, _⟩ => ⟨S128x50176x1, .i1⟩
  | .hbm, ⟨40, _⟩ => ⟨S1x1x1, .i32⟩
  | .hbm, ⟨41, _⟩ => ⟨S128x50176x1, .i32⟩
  | .hbm, ⟨42, _⟩ => ⟨S128x50176x1, .i1⟩
  | .hbm, ⟨43, _⟩ => ⟨S128x50176x1, .i1⟩
  | .hbm, ⟨44, _⟩ => ⟨S_, .i1⟩
  | .hbm, ⟨45, _⟩ => ⟨S128x50176, .i1⟩
  | .hbm, ⟨46, _⟩ => ⟨S128x3x50176, .f32⟩
  | .hbm, ⟨47, _⟩ => ⟨S128x3x50176, .i1⟩
  | .hbm, ⟨48, _⟩ => ⟨S_, .f32⟩
  | .hbm, ⟨49, _⟩ => ⟨S128x3x50176, .f32⟩
  | .hbm, ⟨50, _⟩ => ⟨S128x3x50176, .f32⟩
  | .hbm, ⟨51, _⟩ => ⟨S128x3x196x256, .f32⟩
  | .hbm, ⟨52, _⟩ => ⟨S128x196x3x256, .f32⟩
  | .hbm, ⟨53, _⟩ => ⟨S128x196x768, .f32⟩
  | .hbm, ⟨54, _⟩ => ⟨S128x196x768, .f32⟩
  | .hbm, ⟨55, _⟩ => ⟨S1x1x768, .f32⟩
  | .hbm, ⟨56, _⟩ => ⟨S128x196x768, .f32⟩
  | .hbm, ⟨57, _⟩ => ⟨S128x196x768, .f32⟩
  | .hbm, ⟨58, _⟩ => ⟨S128x196x1, .i32⟩
  | .hbm, ⟨59, _⟩ => ⟨S128x196x1, .i32⟩
  | .hbm, ⟨60, _⟩ => ⟨S128x196x2, .i32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S_S16x1 : S_.BroadcastsInDim S16x1 (![] : Fin 0 → Fin S16x1.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  shapeCasts_S16x16_S256 : S16x16.ShapeCasts S256
  bcast_S_S128x196 : S_.BroadcastsInDim S128x196 (![] : Fin 0 → Fin S128x196.rank)
  bcast_S128x196_S128x196x1_0_1 : S128x196.BroadcastsInDim S128x196x1 (![0, 1] : Fin 2 → Fin S128x196x1.rank)
  bcast_S256_S1x1x256_2 : S256.BroadcastsInDim S1x1x256 (![2] : Fin 1 → Fin S1x1x256.rank)
  bcast_S128x196x1_S128x196x256_0_1_2 : S128x196x1.BroadcastsInDim S128x196x256 (![0, 1, 2] : Fin 3 → Fin S128x196x256.rank)
  bcast_S1x1x256_S128x196x256_0_1_2 : S1x1x256.BroadcastsInDim S128x196x256 (![0, 1, 2] : Fin 3 → Fin S128x196x256.rank)
  shapeCasts_S128x196x256_S128x50176 : S128x196x256.ShapeCasts S128x50176
  shapeCasts_S128x3x224x224_S128x3x50176 : S128x3x224x224.ShapeCasts S128x3x50176
  bcast_S128x50176_S128x1x50176_0_2 : S128x50176.BroadcastsInDim S128x1x50176 (![0, 2] : Fin 2 → Fin S128x1x50176.rank)
  bcast_S_S128x1x50176 : S_.BroadcastsInDim S128x1x50176 (![] : Fin 0 → Fin S128x1x50176.rank)
  shapeCasts_S128x1x50176_S128x50176x1 : S128x1x50176.ShapeCasts S128x50176x1
  bcast_S_S128x50176x1 : S_.BroadcastsInDim S128x50176x1 (![] : Fin 0 → Fin S128x50176x1.rank)
  bcast_S1_S1x1x1_2 : S1.BroadcastsInDim S1x1x1 (![2] : Fin 1 → Fin S1x1x1.rank)
  bcast_S1x1x1_S128x50176x1_0_1_2 : S1x1x1.BroadcastsInDim S128x50176x1 (![0, 1, 2] : Fin 3 → Fin S128x50176x1.rank)
  reducesTo_S128x50176x1_S128x50176_d2 : S128x50176x1.ReducesTo [2] S128x50176
  h_S_ : 0 < S_.numel
  bcast_S128x50176_S128x3x50176_0_2 : S128x50176.BroadcastsInDim S128x3x50176 (![0, 2] : Fin 2 → Fin S128x3x50176.rank)
  bcast_S_S128x3x50176 : S_.BroadcastsInDim S128x3x50176 (![] : Fin 0 → Fin S128x3x50176.rank)
  shapeCasts_S128x3x50176_S128x3x196x256 : S128x3x50176.ShapeCasts S128x3x196x256
  transposes_S128x3x196x256_S128x196x3x256_0_2_1_3 : S128x3x196x256.Transposes [0, 2, 1, 3] S128x196x3x256
  shapeCasts_S128x196x3x256_S128x196x768 : S128x196x3x256.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  concatenates_S128x196x1_S128x196x1_S128x196x2_d2 : Shape.Concatenates [S128x196x1, S128x196x1] S128x196x2 2
  gather_S128x3x50176_S128x50176x1_S128x3x50176_1_2_0_0_2_2_131_wf : GatherDims.WF S128x3x50176 S128x50176x1 S128x3x50176 [1] [2] [0] [2] [0] 2 ![1, 3, 1]
  dot_S128x196x768_S768x768_S128x196x768_2_1_01_0_n_n_wf : DotDims.WF S128x196x768 S768x768 S128x196x768 [2] [1] [0, 1] [0] [] []

variable [Facts₀]

def gather_S128x3x50176_S128x50176x1_S128x3x50176_1_2_0_0_2_2_131 : GatherDims S128x3x50176 S128x50176x1 S128x3x50176 where
  offsetDims := [1]
  collapsedSliceDims := [2]
  operandBatchingDims := [0]
  startIndicesBatchingDims := [0]
  startIndexMap := [2]
  indexVectorDim := 2
  sliceSizes := ![1, 3, 1]
  wf := gather_S128x3x50176_S128x50176x1_S128x3x50176_1_2_0_0_2_2_131_wf
def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.KernelBody.lean ====
/-
  The kernel body's one stored value, read at an index.

  At a grid point the body loads a [1568, 768] block of flattened patches `x0`, the whole [768, 768] transposed weight
  `x1` and the [1, 768] bias row `x2`, and stores

      (x0 · x1) + (bias row broadcast down the 1568 rows).

  Over the extended reals the two roundings to bf16 are the identity and the matrix product into a zero accumulator
  is the plain sum over the contracted axis, so the stored value at (p, q) is
  `(∑ k, x0 (p, k) · x1 (k, q)) + x2 (0, q)`.
-/
import proofs.«154187_j19387482374262_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The product's operand indices: output (p, q) and contraction index k read the left operand at (p, k) and the
    right operand at (k, q). -/

theorem lhs_row (i : S1568x768.Idx) (q : dot_S1568x768_S768x768_S1568x768_1_0_0_1_n_n.contr.Idx) :
    (dot_S1568x768_S768x768_S1568x768_1_0_0_1_n_n.lhsIdx i q 0).val = (i 0).val := by
  unfold DotDims.lhsIdx
  rw [dif_neg (show ¬(0 : Fin S1568x768.rank) ∈ dot_S1568x768_S768x768_S1568x768_1_0_0_1_n_n.lhsBatch by decide), dif_pos (show (0 : Fin S1568x768.rank) ∈ dot_S1568x768_S768x768_S1568x768_1_0_0_1_n_n.lhsNonContracting by decide)]
  rfl
theorem lhs_contr (i : S1568x768.Idx) (q : dot_S1568x768_S768x768_S1568x768_1_0_0_1_n_n.contr.Idx) :
    (dot_S1568x768_S768x768_S1568x768_1_0_0_1_n_n.lhsIdx i q 1).val = (q ⟨0, by decide⟩).val :=
  dot_S1568x768_S768x768_S1568x768_1_0_0_1_n_n.lhsIdx_val_of_single rfl i q
theorem rhs_contr (i : S1568x768.Idx) (q : dot_S1568x768_S768x768_S1568x768_1_0_0_1_n_n.contr.Idx) :
    (dot_S1568x768_S768x768_S1568x768_1_0_0_1_n_n.rhsIdx i q 0).val = (q ⟨0, by decide⟩).val :=
  dot_S1568x768_S768x768_S1568x768_1_0_0_1_n_n.rhsIdx_val_of_single rfl i q
theorem rhs_col (i : S1568x768.Idx) (q : dot_S1568x768_S768x768_S1568x768_1_0_0_1_n_n.contr.Idx) :
    (dot_S1568x768_S768x768_S1568x768_1_0_0_1_n_n.rhsIdx i q 1).val = (i 1).val := by
  unfold DotDims.rhsIdx
  rw [dif_neg (show ¬(1 : Fin S768x768.rank) ∈ dot_S1568x768_S768x768_S1568x768_1_0_0_1_n_n.rhsBatch by decide), dif_pos (show (1 : Fin S768x768.rank) ∈ dot_S1568x768_S768x768_S1568x768_1_0_0_1_n_n.rhsNonContracting by decide)]
  rfl

/-- The matrix product into the zero accumulator, at (p, q): the sum over k of left (p, k) times right (k, q). -/
theorem product_apply (a : FVec Ideal S1568x768 .bf16) (b : FVec Ideal S768x768 .bf16) (p : Fin 1568) (q : Fin 768) :
    matmul dot_S1568x768_S768x768_S1568x768_1_0_0_1_n_n none a b (constant S1568x768 .f32 0x00000000#32) (ix2 p q)
      = ∑ k : Fin 768, a (ix2 p k) * b (ix2 k q) := by
  simp only [matmul]
  rw [Ideal.matmul_constant_zero_apply, ← Equiv.sum_comp (contrEquiv1 dot_S1568x768_S768x768_S1568x768_1_0_0_1_n_n 768 rfl rfl).symm]
  refine Finset.sum_congr rfl fun k _ => ?_
  have hk := contrEquiv1_symm_val dot_S1568x768_S768x768_S1568x768_1_0_0_1_n_n 768 rfl rfl k
  have el : dot_S1568x768_S768x768_S1568x768_1_0_0_1_n_n.lhsIdx (ix2 p q) ((contrEquiv1 dot_S1568x768_S768x768_S1568x768_1_0_0_1_n_n 768 rfl rfl).symm k) = ix2 p k := funext fun a => Fin.ext (by
    match a with
    | ⟨0, _⟩ => exact lhs_row _ _
    | ⟨1, _⟩ => exact (lhs_contr _ _).trans hk)
  have er : dot_S1568x768_S768x768_S1568x768_1_0_0_1_n_n.rhsIdx (ix2 p q) ((contrEquiv1 dot_S1568x768_S768x768_S1568x768_1_0_0_1_n_n 768 rfl rfl).symm k) = ix2 k q := funext fun a => Fin.ext (by
    match a with
    | ⟨0, _⟩ => exact (rhs_contr _ _).trans hk
    | ⟨1, _⟩ => exact rhs_col _ _)
  rw [el, er]

/-- The bias row broadcast down the rows, at (p, q): the row's entry q. -/
theorem bias_rows_apply (r : FVec Ideal S1x768 .f32) (p : Fin 1568) (q : Fin 768) :
    broadcastTo S1568x768 r broadcasts_S1x768_S1568x768 (ix2 p q) = r (ix2 0 q) :=
  broadcastTo_apply r broadcasts_S1x768_S1568x768 (ix2 p q) (ix2 0 q) fun a => match a with
    | ⟨0, _⟩ => by show (0 : ℕ) = if (1 : Nat) = 1 then 0 else p.val; rw [if_pos rfl]
    | ⟨1, _⟩ => by show q.val = if (768 : Nat) = 1 then 0 else q.val; rw [if_neg (by decide)]

/-- THE STORED VALUE at (p, q). -/
theorem stored_apply (x0 : FVec Ideal S1568x768 .f32) (x1 : FVec Ideal S768x768 .f32) (x2 : FVec Ideal S1x768 .f32)
    (p : Fin 1568) (q : Fin 768) :
    k0_pay1 (F := Ideal) x0 x1 x2 (ix2 p q) = (∑ k : Fin 768, x0 (ix2 p k) * x1 (ix2 k q)) + x2 (ix2 0 q) := by
  unfold k0_pay1
  rw [addf_apply, product_apply, bias_rows_apply]
  simp only [shapeCast_self, truncf_apply]

end Cert.KernelIdeal.Body

end
-- ==== Proof.Projection.lean ====
/-
  The patch projection as ONE function of the patch array, the weight matrix and the bias.

  A patch array `P` of shape [128, 196, 768] (image, patch, flattened patch entry), a weight `W` of shape
  [768, 768] (output feature, patch entry) and a bias of length 768 give the tokens

      tokens P W bias (b, n, d) = (∑ f, P (b, n, f) · W (d, f)) + bias d .

  The same numbers arise from the flattened arrangement: the patches as a [25088, 768] matrix (row 196·b + n), the
  weight transposed, the bias as a [1, 768] row, multiplied as plain matrices and the rows unflattened again
  (`unflatten_tokensFlat`). No law of the extended reals is used: the two arrangements have the same terms in the
  same order.
-/
import Idealize.ShloMosaic.PureOps.Ideal
import Idealize.ShloMosaic.Lib.ValueIdx
import Idealize.ShloMosaic.Lib.ValueLayout
import Idealize.ShloMosaic.Lib.Pipeline.Value

noncomputable section

namespace Cert.PatchProj

open Idealize.ShloMosaic Idealize.ShloMosaic.ValueIdx
open scoped BigOperators

/-- [image, patch, feature]. -/
abbrev Tok : Shape := ⟨3, ![128, 196, 768]⟩
/-- [image · 196 + patch, feature]. -/
abbrev Flat : Shape := ⟨2, ![25088, 768]⟩
abbrev Sq : Shape := ⟨2, ![768, 768]⟩
abbrev Row : Shape := ⟨2, ![1, 768]⟩
abbrev Len : Shape := ⟨1, ![768]⟩

/-- Token (b, n), feature d: the patch's 768 entries against row d of the weight, plus the bias at d. -/
def tokens (P : Tok.Idx → EReal) (W : Sq.Idx → EReal) (bias : Len.Idx → EReal) : Tok.Idx → EReal :=
  fun j => (∑ f : Fin 768, P (ix3 (n0 := 128) (n1 := 196) (n2 := 768) (j 0) (j 1) f) * W (ix2 (n0 := 768) (n1 := 768) (j 2) f))
    + bias (ix1 (n := 768) (j 2))

/-- Row r, column d of the plain matrix product of the flattened patches with a [768, 768] matrix, plus a row vector. -/
def tokensFlat (P2 : Flat.Idx → EReal) (Wt : Sq.Idx → EReal) (b2 : Row.Idx → EReal) : Flat.Idx → EReal :=
  fun i => (∑ k : Fin 768, P2 (ix2 (n0 := 25088) (n1 := 768) (i 0) k) * Wt (ix2 (n0 := 768) (n1 := 768) k (i 1)))
    + b2 (ix2 (n0 := 1) (n1 := 768) 0 (i 1))

/-- Row 196·b + n of the flattened patches is patch (b, n). -/
theorem flatten_apply (P : Tok.Idx → EReal) (hc : Tok.ShapeCasts Flat) (b : Fin 128) (n : Fin 196) (k : Fin 768) (r : Fin 25088)
    (hr : r.val = b.val * 196 + n.val) :
    shapeCast Flat P hc (ix2 r k) = P (ix3 b n k) :=
  shapeCast_apply P hc _ _ (by
    rw [Shape.rowMajor_val_three, Shape.rowMajor_val_two]
    show (b.val * 196 + n.val) * 768 + k.val = r.val * 768 + k.val
    rw [hr])

/-- The flattened arrangement, unflattened, is the tokens. -/
theorem unflatten_tokensFlat (P : Tok.Idx → EReal) (W : Sq.Idx → EReal) (bias : Len.Idx → EReal)
    (hc : Tok.ShapeCasts Flat) (ht : Sq.Transposes [1, 0] Sq) (hb : Len.ShapeCasts Row) (hu : Flat.ShapeCasts Tok) :
    shapeCast Tok (tokensFlat (shapeCast Flat P hc) (transpose Sq [1, 0] W ht) (shapeCast Row bias hb)) hu = tokens P W bias := by
  funext j
  obtain ⟨b, n, d, rfl⟩ : ∃ (b : Fin 128) (n : Fin 196) (d : Fin 768), j = ix3 b n d := ⟨j 0, j 1, j 2, eq_ix3 j⟩
  have hlt : b.val * 196 + n.val < 25088 := by have := b.isLt; have := n.isLt; omega
  rw [shapeCast_apply _ hu (ix3 b n d) (ix2 (n0 := 25088) (n1 := 768) ⟨b.val * 196 + n.val, hlt⟩ d) (by
    rw [Shape.rowMajor_val_three, Shape.rowMajor_val_two]; rfl)]
  show (∑ k : Fin 768, shapeCast Flat P hc (ix2 ⟨b.val * 196 + n.val, hlt⟩ k) * transpose Sq [1, 0] W ht (ix2 k d))
      + shapeCast Row bias hb (ix2 0 d)
    = (∑ f : Fin 768, P (ix3 b n f) * W (ix2 d f)) + bias (ix1 d)
  congr 1
  · refine Finset.sum_congr rfl fun k _ => ?_
    rw [flatten_apply P hc b n k ⟨b.val * 196 + n.val, hlt⟩ rfl, transpose_ix2_apply W ht]
  · exact shapeCast_apply bias hb _ _ (by rw [Shape.rowMajor_val_one, Shape.rowMajor_val_two]; show d.val = 0 * 768 + d.val; omega)

end Cert.PatchProj

end
-- ==== Proof.KernelArray.lean ====
/-
  From the blocks the kernel writes back to the whole result array.

  The region runs 16 grid points. Point t stages rows 1568·t … 1568·t + 1567 of the flattened patch matrix (window 0),
  the whole transposed weight (window 1) and the bias row (window 2), and writes back rows 1568·t … 1568·t + 1567 of the
  [25088, 768] result (window 3). Each written-back block is the same rows of ONE function of the three arrays as
  the region finds them — the plain matrix product plus the bias row, `Cert.PatchProj.tokensFlat` —, and the 16
  blocks tile the result, so after the region the result array IS that function.

  The block reads are stated for ANY array contents (a variable), and only then used at the arrays the region finds.
-/
import proofs.«154187_j19387482374262_1_alg».proof.Proof.Gen.KernelIdeal.Frame
import proofs.«154187_j19387482374262_1_alg».proof.Proof.KernelBody
import proofs.«154187_j19387482374262_1_alg».proof.Proof.Projection
import Idealize.ShloMosaic.Lib.Pipeline.Value
import Idealize.ShloMosaic.Lib.Tactic

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The printed index maps over the grid: the patch rows and the result rows move with the point, the weight and the
    bias stay at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each window's block at a point, read off ANY contents of its array -/

/-- Window 0: row p of point t's block is row 1568·t + p of the array. -/
theorem read_rows0 (A : S25088x768.Idx → EReal) (t : Fin cfg0.N) (p : Fin 1568) (k : Fin 768) (r : Fin 25088)
    (hr : r.val = t.val * 1568 + p.val) :
    (((cfg0.win 0).blk t).view.read (Elt Ideal) A : Vec Ideal S1568x768 .f32) (ix2 p k) = A (ix2 r k) := by
  obtain ⟨e0, e1, -⟩ := block_index t
  rw [View.read_apply]
  show A _ = A _
  refine congrArg A (funext fun a => Fin.ext ?_)
  match a with
  | ⟨0, _⟩ => show win0_0.index t (0 : Fin 2) * 1568 + 1 * p.val = r.val; omega
  | ⟨1, _⟩ => show win0_0.index t (1 : Fin 2) * 768 + 1 * k.val = k.val; omega

/-- Window 1: every point's block is the whole array. -/
theorem read_all1 (A : S768x768.Idx → EReal) (t : Fin cfg0.N) (k q : Fin 768) :
    (((cfg0.win 1).blk t).view.read (Elt Ideal) A : Vec Ideal S768x768 .f32) (ix2 k q) = A (ix2 k q) := by
  obtain ⟨-, -, e2, e3, -⟩ := block_index t
  rw [View.read_apply]
  show A _ = A _
  refine congrArg A (funext fun a => Fin.ext ?_)
  match a with
  | ⟨0, _⟩ => show win0_1.index t (0 : Fin 2) * 768 + 1 * k.val = k.val; omega
  | ⟨1, _⟩ => show win0_1.index t (1 : Fin 2) * 768 + 1 * q.val = q.val; omega

/-- Window 2: every point's block is the whole row. -/
theorem read_all2 (A : S1x768.Idx → EReal) (t : Fin cfg0.N) (q : Fin 768) :
    (((cfg0.win 2).blk t).view.read (Elt Ideal) A : Vec Ideal S1x768 .f32) (ix2 0 q) = A (ix2 0 q) := by
  obtain ⟨-, -, -, -, e4, e5, -⟩ := block_index t
  rw [View.read_apply]
  show A _ = A _
  refine congrArg A (funext fun a => Fin.ext ?_)
  match a with
  | ⟨0, _⟩ => show win0_2.index t (0 : Fin 2) * 1 + 1 * 0 = 0; omega
  | ⟨1, _⟩ => show win0_2.index t (1 : Fin 2) * 768 + 1 * q.val = q.val; omega

/-- Window 3: row p of point t's block is row 1568·t + p of the array. -/
theorem read_rows3 (A : S25088x768.Idx → EReal) (t : Fin cfg0.N) (p : Fin 1568) (q : Fin 768) (r : Fin 25088)
    (hr : r.val = t.val * 1568 + p.val) :
    (((cfg0.win 3).blk t).view.read (Elt Ideal) A : Vec Ideal S1568x768 .f32) (ix2 p q) = A (ix2 r q) := by
  obtain ⟨-, -, -, -, -, -, e6, e7⟩ := block_index t
  rw [View.read_apply]
  show A _ = A _
  refine congrArg A (funext fun a => Fin.ext ?_)
  match a with
  | ⟨0, _⟩ => show win0_3.index t (0 : Fin 2) * 1568 + 1 * p.val = r.val; omega
  | ⟨1, _⟩ => show win0_3.index t (1 : Fin 2) * 768 + 1 * q.val = q.val; omega

/-- What a write-back of window 3 takes of a staged block is the whole block (the blocks tile the array: nothing is
    cut). -/
theorem cut_rows3 (t : Fin cfg0.N) (X : S1568x768.Idx → EReal) (j : S1568x768.Idx) :
    (cfg0.win 3).cut (grid0.coords t) X j = X j := rfl

/-! ## At the arrays the region finds -/

variable (m : (ℓ : Loc nD τ sig) → Buf (Elt Ideal) ℓ) (ρ : Dev nD → PrngReg)

/-- The three staged arrays as the region finds them, at their literal types. -/
abbrev patchRows (c : Dev nD) : S25088x768.Idx → EReal := V m c (Pipeline.arrRef spec0 0)
abbrev weightT (c : Dev nD) : S768x768.Idx → EReal := V m c (Pipeline.arrRef spec0 1)
abbrev biasRow (c : Dev nD) : S1x768.Idx → EReal := V m c (Pipeline.arrRef spec0 2)

/-- The result array's function of the three staged arrays. -/
abbrev flat (c : Dev nD) : S25088x768.Idx → EReal :=
  Cert.PatchProj.tokensFlat (patchRows m c) (weightT m c) (biasRow m c)

/-- The value point t stores, at row p: row 1568·t + p of `flat`. -/
theorem stored_block (c : Dev nD) (t : Fin cfg0.N) (p : Fin 1568) (q : Fin 768) (r : Fin 25088)
    (hr : r.val = t.val * 1568 + p.val) :
    k0_pay1 (F := Ideal) (iblk m c 0 t) (iblk m c 1 t) (iblk m c 2 t) (ix2 p q) = flat m c (ix2 r q) := by
  refine (Body.stored_apply (iblk m c 0 t) (iblk m c 1 t) (iblk m c 2 t) p q).trans ?_
  show _ = (∑ k : Fin 768, patchRows m c (ix2 r k) * weightT m c (ix2 k q)) + biasRow m c (ix2 0 q)
  refine congrArg₂ (· + ·) (Finset.sum_congr rfl fun k _ => ?_) (read_all2 (biasRow m c) t q)
  exact congrArg₂ (· * ·) (read_rows0 (patchRows m c) t p k r hr) (read_all1 (weightT m c) t k q)

/-- WHAT POINT t WRITES BACK is rows 1568·t … of `flat`. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz]
  simp only [View.ld_unit_zero (S := S1568x768) hz, View.ld_unit_zero (S := S768x768) hz, View.ld_unit_zero (S := S1x768) hz]
  refine funext fun (j : S1568x768.Idx) => ?_
  obtain ⟨p, q, rfl⟩ : ∃ (p : Fin 1568) (q : Fin 768), j = ix2 p q := ⟨j 0, j 1, eq_ix2 j⟩
  have hN : cfg0.N = 16 := N_0
  have hlt : t.val * 1568 + p.val < 25088 := by have := t.isLt; have := p.isLt; omega
  refine (cut_rows3 t _ (ix2 p q)).trans ?_
  refine Eq.trans ?_ (read_rows3 (flat m c) t p q ⟨t.val * 1568 + p.val, hlt⟩ rfl).symm
  exact stored_block m c t p q ⟨t.val * 1568 + p.val, hlt⟩ rfl

/-- An index of the result array is in point t's block iff each coordinate is in the block's range on its axis. -/
theorem mem_block (t : Fin cfg0.N) (i : S25088x768.Idx) :
    i ∈ ((cfg0.win 3).blk t).view.set ↔ ∀ a : Fin 2, win0_3.index t a * S1568x768.size a ≤ (i a).val ∧ (i a).val < win0_3.index t a * S1568x768.size a + S1568x768.size a := by
  show i ∈ ((View.whole main_v28).slice (win0_3.rect t)).set ↔ _
  rw [View.set_slice_whole, Rect.mem_set_unit]
  exact Iff.rfl

/-- THE RESULT ARRAY after the region: row r is in the block of point r / 1568, so the blocks cover it. -/
theorem final (c : Dev nD) : (dats m 0 c).arrAt 3 cfg0.N = flat m c :=
  (dats m 0 c).arrAt_eq_of_cover 3 (flat m c) (fun t _ => flushed_eq m c t) fun i => by
    have hi0 : (i 0).val < 25088 := (i 0).isLt
    have hi1 : (i 1).val < 768 := (i 1).isLt
    have hN : cfg0.N = 16 := N_0
    have hq : (i 0).val / 1568 < cfg0.N := by rw [hN]; omega
    obtain ⟨-, -, -, -, -, -, e6, e7⟩ := block_index ⟨(i 0).val / 1568, hq⟩
    refine ⟨⟨(i 0).val / 1568, hq⟩, flush0_3 _, ?_⟩
    rw [mem_block]
    intro a
    match a with
    | ⟨0, _⟩ =>
      show win0_3.index ⟨(i 0).val / 1568, hq⟩ (0 : Fin 2) * 1568 ≤ (i 0).val ∧ (i 0).val < win0_3.index ⟨(i 0).val / 1568, hq⟩ (0 : Fin 2) * 1568 + 1568
      rw [e6]; show (i 0).val / 1568 * 1568 ≤ (i 0).val ∧ (i 0).val < (i 0).val / 1568 * 1568 + 1568; omega
    | ⟨1, _⟩ =>
      show win0_3.index ⟨(i 0).val / 1568, hq⟩ (1 : Fin 2) * 768 ≤ (i 1).val ∧ (i 1).val < win0_3.index ⟨(i 0).val / 1568, hq⟩ (1 : Fin 2) * 768 + 768
      rw [e7]; omega

end Cert.KernelIdeal.Arr

end
-- ==== Proof.KernelHost.lean ====
/-
  The three arrays the region stages, as the host operations before it leave them.

  Of the 52 host operations before the region only the last six matter here: they reshape the patch array
  [128, 196, 768] (`main_v24`) to the [25088, 768] matrix the region reads, transpose the weight, and view the bias as a
  [1, 768] row. What the 46 operations before them leave (the patch array among it) stays a variable.
-/
import proofs.«154187_j19387482374262_1_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The host prefix as its three stretches in a row. -/
theorem prefix_stretches :
    List.flatten [(hostOps0 : List (HloOp τ sig (Elt F))), hostOps0_1, hostOps0_2] = hostOps0 ++ (hostOps0_1 ++ hostOps0_2) := by
  simp only [List.flatten_cons, List.flatten_nil, List.append_nil]

/-- The last stretch, over whatever the first two leave: the patch matrix is the patch array's rows flattened. -/
theorem last_patchRows (W : Valuation τ sig (Elt F)) :
    after hostOps0_2 W (Proc.devRef .tc main_v25)
      = shapeCast S25088x768 (after hostOps0_2 W (Proc.devRef .tc main_v24)) shapeCasts_S128x196x768_S25088x768 := by
  after_results <;> rfl

/-- … the staged weight is the weight transposed … -/
theorem last_weightT (W : Valuation τ sig (Elt F)) :
    after hostOps0_2 W (Proc.devRef .tc main_v26)
      = transpose S768x768 [1, 0] (after hostOps0_2 W (Proc.devRef .tc main_arg3)) transposes_S768x768_S768x768_1_0 := by
  after_results <;> rfl

/-- … and the staged bias is the bias as a row. -/
theorem last_biasRow (W : Valuation τ sig (Elt F)) :
    after hostOps0_2 W (Proc.devRef .tc main_v27)
      = shapeCast S1x768 (after hostOps0_2 W (Proc.devRef .tc main_arg4)) shapeCasts_S768_S1x768 := by
  after_results <;> rfl

variable (m : (ℓ : Loc nD τ sig) → Buf (Elt F) ℓ)

/-- The patch matrix the region finds. -/
theorem patchRows_eq (c : Dev nD) :
    V m c main_v25 = shapeCast S25088x768 (V m c main_v24) shapeCasts_S128x196x768_S25088x768 := by
  dsimp only [V, V0]
  rw [prefix_stretches, StableHlo.after_append, StableHlo.after_append]
  exact last_patchRows _

/-- The transposed weight the region finds. -/
theorem weightT_eq (c : Dev nD) :
    V m c main_v26 = transpose S768x768 [1, 0] (m ((c : Thread nD τ).loc main_arg3)) transposes_S768x768_S768x768_1_0 := by
  rw [← V_main_arg3 m c]
  dsimp only [V, V0]
  rw [prefix_stretches, StableHlo.after_append, StableHlo.after_append]
  exact last_weightT _

/-- The bias row the region finds. -/
theorem biasRow_eq (c : Dev nD) :
    V m c main_v27 = shapeCast S1x768 (m ((c : Thread nD τ).loc main_arg4)) shapeCasts_S768_S1x768 := by
  rw [← V_main_arg4 m c]
  dsimp only [V, V0]
  rw [prefix_stretches, StableHlo.after_append, StableHlo.after_append]
  exact last_biasRow _

end Cert.KernelIdeal.Host

end
-- ==== Proof.KernelRun.lean ====
/-
  The idealized kernel's run, read: what its two results hold at the end.

  After the region the result array is the flat product-plus-bias of the three staged arrays; the one host operation
  after it that touches floats unflattens the rows to [128, 196, 768]. Read through what the host operations before
  the region left in the staged arrays (the patch array's rows flattened, the weight transposed, the bias as a row),
  the first result is `Cert.PatchProj.tokens` of the patch array, the weight and the bias. The second result stacks the
  two coordinate arrays along a new last axis, untouched by the region.
-/
import proofs.«154187_j19387482374262_1_alg».proof.Proof.KernelArray
import proofs.«154187_j19387482374262_1_alg».proof.Proof.KernelHost

noncomputable section

namespace Cert.KernelIdeal.Run

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The flat result, read through the staged arrays: the tokens of the patch array, unflattened. -/
theorem unflatten_flat (c : Dev nD) :
    shapeCast S128x196x768 (Arr.flat m c) shapeCasts_S25088x768_S128x196x768
      = Cert.PatchProj.tokens (V m c main_v24) (m ((c : Thread nD τ).loc main_arg3)) (m ((c : Thread nD τ).loc main_arg4)) := by
  have e0 : Arr.patchRows m c = shapeCast S25088x768 (V m c main_v24) shapeCasts_S128x196x768_S25088x768 := Host.patchRows_eq m c
  have e1 : Arr.weightT m c = transpose S768x768 [1, 0] (m ((c : Thread nD τ).loc main_arg3)) transposes_S768x768_S768x768_1_0 := Host.weightT_eq m c
  have e2 : Arr.biasRow m c = shapeCast S1x768 (m ((c : Thread nD τ).loc main_arg4)) shapeCasts_S768_S1x768 := Host.biasRow_eq m c
  show shapeCast S128x196x768 (Cert.PatchProj.tokensFlat (Arr.patchRows m c) (Arr.weightT m c) (Arr.biasRow m c)) shapeCasts_S25088x768_S128x196x768 = _
  rw [e0, e1, e2]
  exact Cert.PatchProj.unflatten_tokensFlat _ _ _ _ _ _ _

/-- The first result after the lines that follow the region. -/
theorem tail_tokens (c : Dev nD) :
    Pipeline.afterTail₀ cfgs (dats m) 0 (V0 m) [hostOps1] c main_v29
      = Cert.PatchProj.tokens (V m c main_v24) (m ((c : Thread nD τ).loc main_arg3)) (m ((c : Thread nD τ).loc main_arg4)) := by
  unfold Pipeline.afterTail₀
  show after hostOps1 _ (Proc.devRef .tc main_v29) = _
  after_results
  rw [Pipeline.withArrays_arr spec0 launch0.win.arr_inj c _ _ 3, Arr.final m c]
  exact unflatten_flat m c

/-- The second result after the lines that follow the region: the two coordinate arrays stacked. -/
theorem tail_positions (c : Dev nD) :
    Pipeline.afterTail₀ cfgs (dats m) 0 (V0 m) [hostOps1] c main_v32
      = concatenate S128x196x2 2 [⟨S128x196x1, broadcastInDim S128x196x1 ![0, 1] bcast_S128x196_S128x196x1_0_1 (m ((c : Thread nD τ).loc main_arg1))⟩,
          ⟨S128x196x1, broadcastInDim S128x196x1 ![0, 1] bcast_S128x196_S128x196x1_0_1 (m ((c : Thread nD τ).loc main_arg2))⟩]
          concatenates_S128x196x1_S128x196x1_S128x196x2_d2 := by
  unfold Pipeline.afterTail₀
  show after hostOps1 _ (Proc.devRef .tc main_v32) = _
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  rw [show V0 m c (Proc.devRef .tc main_arg1) = m ((c : Thread nD τ).loc main_arg1) from V_main_arg1 m c,
    show V0 m c (Proc.devRef .tc main_arg2) = m ((c : Thread nD τ).loc main_arg2) from V_main_arg2 m c]

/-- THE RUN, READ: every weakly fair execution terminates with the first result at the tokens of the patch array, the
    second at the stacked coordinates, and the arguments unchanged. -/
theorem run : θ_run defs (onTc (τ := τ) (main (F := Ideal))) ⟨m, fun _ => 0, ρ⟩ fun r => ∀ c : Dev nD,
      r.2.mem ((c.tc : Thread nD τ).loc main_v29)
        = Cert.PatchProj.tokens (V m c main_v24) (m ((c : Thread nD τ).loc main_arg3)) (m ((c : Thread nD τ).loc main_arg4))
      ∧ r.2.mem ((c.tc : Thread nD τ).loc main_v32)
        = concatenate S128x196x2 2 [⟨S128x196x1, broadcastInDim S128x196x1 ![0, 1] bcast_S128x196_S128x196x1_0_1 (m ((c : Thread nD τ).loc main_arg1))⟩,
            ⟨S128x196x1, broadcastInDim S128x196x1 ![0, 1] bcast_S128x196_S128x196x1_0_1 (m ((c : Thread nD τ).loc main_arg2))⟩]
            concatenates_S128x196x1_S128x196x1_S128x196x2_d2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v29 (Pipeline.mem_restRefs_of main_v29 (by decide) (by decide))).trans (tail_tokens m c),
      ((h c).2 main_v32 (Pipeline.mem_restRefs_of main_v32 (by decide) (by decide))).trans (tail_positions m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefTokens.lean ====
/-
  The reference's last operations, read at an index.

  After the patch array `P` (shape [128, 196, 768]) the reference contracts its last axis with the weight's last
  axis (`einsum 'bnf,df->bnd'`), and adds the bias broadcast along the first two axes. Over the extended reals the
  host's product is the plain sum over f, so the result at (b, n, d) is `(∑ f, P (b, n, f) · W (d, f)) + bias d`:
  the function `Cert.PatchProj.tokens`.
-/
import proofs.«154187_j19387482374262_1_alg».proof.Proof.RefRun
import proofs.«154187_j19387482374262_1_alg».proof.Proof.Projection
import Idealize.ShloMosaic.Lib.Pipeline.Value
import Idealize.ShloMosaic.Lib.ValueIdx
import Idealize.ShloMosaic.PureOps.Ideal.Laws

noncomputable section

namespace Cert.ReferenceIdeal.Tokens

open Cert.ReferenceIdeal Cert.ReferenceIdeal.Gen Idealize.ShloMosaic Idealize.ShloMosaic.ValueIdx
open scoped BigOperators

/-! ## The product's operand indices: output (b, n, d) and contraction index f read the patches at (b, n, f) and
    the weight at (d, f). -/

theorem lhs_image (i : S128x196x768.Idx) (q : dot_S128x196x768_S768x768_S128x196x768_2_1_01_0_n_n.contr.Idx) :
    (dot_S128x196x768_S768x768_S128x196x768_2_1_01_0_n_n.lhsIdx i q 0).val = (i 0).val := by
  unfold DotDims.lhsIdx
  rw [dif_neg (show ¬(0 : Fin S128x196x768.rank) ∈ dot_S128x196x768_S768x768_S128x196x768_2_1_01_0_n_n.lhsBatch by decide), dif_pos (show (0 : Fin S128x196x768.rank) ∈ dot_S128x196x768_S768x768_S128x196x768_2_1_01_0_n_n.lhsNonContracting by decide)]
  rfl
theorem lhs_patch (i : S128x196x768.Idx) (q : dot_S128x196x768_S768x768_S128x196x768_2_1_01_0_n_n.contr.Idx) :
    (dot_S128x196x768_S768x768_S128x196x768_2_1_01_0_n_n.lhsIdx i q 1).val = (i 1).val := by
  unfold DotDims.lhsIdx
  rw [dif_neg (show ¬(1 : Fin S128x196x768.rank) ∈ dot_S128x196x768_S768x768_S128x196x768_2_1_01_0_n_n.lhsBatch by decide), dif_pos (show (1 : Fin S128x196x768.rank) ∈ dot_S128x196x768_S768x768_S128x196x768_2_1_01_0_n_n.lhsNonContracting by decide)]
  rfl
theorem lhs_contr (i : S128x196x768.Idx) (q : dot_S128x196x768_S768x768_S128x196x768_2_1_01_0_n_n.contr.Idx) :
    (dot_S128x196x768_S768x768_S128x196x768_2_1_01_0_n_n.lhsIdx i q 2).val = (q ⟨0, by decide⟩).val :=
  dot_S128x196x768_S768x768_S128x196x768_2_1_01_0_n_n.lhsIdx_val_of_single rfl i q
theorem rhs_feature (i : S128x196x768.Idx) (q : dot_S128x196x768_S768x768_S128x196x768_2_1_01_0_n_n.contr.Idx) :
    (dot_S128x196x768_S768x768_S128x196x768_2_1_01_0_n_n.rhsIdx i q 0).val = (i 2).val := by
  unfold DotDims.rhsIdx
  rw [dif_neg (show ¬(0 : Fin S768x768.rank) ∈ dot_S128x196x768_S768x768_S128x196x768_2_1_01_0_n_n.rhsBatch by decide), dif_pos (show (0 : Fin S768x768.rank) ∈ dot_S128x196x768_S768x768_S128x196x768_2_1_01_0_n_n.rhsNonContracting by decide)]
  rfl
theorem rhs_contr (i : S128x196x768.Idx) (q : dot_S128x196x768_S768x768_S128x196x768_2_1_01_0_n_n.contr.Idx) :
    (dot_S128x196x768_S768x768_S128x196x768_2_1_01_0_n_n.rhsIdx i q 1).val = (q ⟨0, by decide⟩).val :=
  dot_S128x196x768_S768x768_S128x196x768_2_1_01_0_n_n.rhsIdx_val_of_single rfl i q

/-- The host's product at (b, n, d): the sum over f of patches (b, n, f) times weight (d, f). -/
theorem product_apply (P : FVec Ideal S128x196x768 .f32) (W : FVec Ideal S768x768 .f32) (b : Fin 128) (n : Fin 196) (d : Fin 768) :
    Host.dotGeneral dot_S128x196x768_S768x768_S128x196x768_2_1_01_0_n_n none P W (ix3 b n d) = ∑ f : Fin 768, P (ix3 b n f) * W (ix2 d f) := by
  simp only [Host.dotGeneral]
  rw [Ideal.dotGeneral_apply, ← Equiv.sum_comp (contrEquiv1 dot_S128x196x768_S768x768_S128x196x768_2_1_01_0_n_n 768 rfl rfl).symm]
  refine Finset.sum_congr rfl fun k _ => ?_
  have hk := contrEquiv1_symm_val dot_S128x196x768_S768x768_S128x196x768_2_1_01_0_n_n 768 rfl rfl k
  have el : dot_S128x196x768_S768x768_S128x196x768_2_1_01_0_n_n.lhsIdx (ix3 b n d) ((contrEquiv1 dot_S128x196x768_S768x768_S128x196x768_2_1_01_0_n_n 768 rfl rfl).symm k) = ix3 b n k := funext fun a => Fin.ext (by
    match a with
    | ⟨0, _⟩ => exact lhs_image _ _
    | ⟨1, _⟩ => exact lhs_patch _ _
    | ⟨2, _⟩ => exact (lhs_contr _ _).trans hk)
  have er : dot_S128x196x768_S768x768_S128x196x768_2_1_01_0_n_n.rhsIdx (ix3 b n d) ((contrEquiv1 dot_S128x196x768_S768x768_S128x196x768_2_1_01_0_n_n 768 rfl rfl).symm k) = ix2 d k := funext fun a => Fin.ext (by
    match a with
    | ⟨0, _⟩ => exact rhs_feature _ _
    | ⟨1, _⟩ => exact (rhs_contr _ _).trans hk)
  rw [el, er]

/-- The bias broadcast along image and patch, at (b, n, d): the bias at d. -/
theorem bias_apply (v : FVec Ideal S768 .f32) (b : Fin 128) (n : Fin 196) (d : Fin 768) :
    broadcastInDim S128x196x768 ![0, 1, 2] bcast_S1x1x768_S128x196x768_0_1_2 (broadcastInDim S1x1x768 ![2] bcast_S768_S1x1x768_2 v) (ix3 b n d)
      = v (ix1 d) := by
  rw [broadcastInDim_apply _ bcast_S1x1x768_S128x196x768_0_1_2 _ (ix3 b n d) (ix3 (n0 := 1) (n1 := 1) (n2 := 768) 0 0 d) (fun a => match a with
    | ⟨0, _⟩ => by show (0 : ℕ) = if (1 : Nat) = 1 then 0 else b.val; rw [if_pos rfl]
    | ⟨1, _⟩ => by show (0 : ℕ) = if (1 : Nat) = 1 then 0 else n.val; rw [if_pos rfl]
    | ⟨2, _⟩ => by show d.val = if (768 : Nat) = 1 then 0 else d.val; rw [if_neg (by decide)])]
  exact broadcastInDim_apply _ bcast_S768_S1x1x768_2 v (ix3 (n0 := 1) (n1 := 1) (n2 := 768) 0 0 d) (ix1 d) (fun a => match a with
    | ⟨0, _⟩ => by show d.val = if (768 : Nat) = 1 then 0 else d.val; rw [if_neg (by decide)])

/-- THE REFERENCE'S RESULT as the one function of the patch array, the weight and the bias. -/
theorem result_eq (P : FVec Ideal S128x196x768 .f32) (W : FVec Ideal S768x768 .f32) (v : FVec Ideal S768 .f32) :
    addf (Host.dotGeneral dot_S128x196x768_S768x768_S128x196x768_2_1_01_0_n_n none P W)
        (broadcastInDim S128x196x768 ![0, 1, 2] bcast_S1x1x768_S128x196x768_0_1_2 (broadcastInDim S1x1x768 ![2] bcast_S768_S1x1x768_2 v))
      = Cert.PatchProj.tokens P W v := by
  funext j
  obtain ⟨b, n, d, rfl⟩ : ∃ (b : Fin 128) (n : Fin 196) (d : Fin 768), j = ix3 b n d := ⟨j 0, j 1, j 2, eq_ix3 j⟩
  rw [addf_apply, product_apply, bias_apply]
  rfl

end Cert.ReferenceIdeal.Tokens

end
-- ==== Proof.RefPatches.lean ====
/-
  The reference's patch array as three stretches of host operations in a row.

  The 49 operations that compute the patch array fall into: 23 that build the gather indices (the patch offsets
  `ys · 224 + xs` plus the within-patch offsets, flattened per image) and flatten the image's pixels; the 23 of
  `take_along_axis` (wrap a negative index, test it in range, gather, fill out-of-range reads); and 3 that regroup the
  gathered pixels per patch (reshape, swap the channel and patch axes, reshape). The same three stretches, in the same
  order, open the kernel's program; each stretch is a function of the few buffers it reads (the middle one of the flattened
  pixels and the index array).
-/
import proofs.«154187_j19387482374262_1_alg».proof.Proof.RefRun

noncomputable section

namespace Cert.ReferenceIdeal.Patch

open Cert.ReferenceIdeal Cert.ReferenceIdeal.Gen Idealize.ShloMosaic Idealize.ShloMosaic.TcCoe Idealize.SL.Sem Idealize.ShloMosaic.StableHlo

variable {F : FTy → Type} [FloatOps F]

/-- The gather indices and the flattened pixels. -/
def indexOps : List (HloOp τ sig (Elt F)) :=
  [ nullary main_v0 (iotaInDim S16 32 0),
    unary main_v0 main_v1 (broadcastInDim S16x1 ![0] bcast_S16_S16x1_0 : (⟨S16, .i32⟩ : BufTy).Contents (Elt F) → (⟨S16x1, .i32⟩ : BufTy).Contents (Elt F)),
    nullary main_v2 (iotaInDim S16 32 0),
    unary main_v2 main_v3 (broadcastInDim S1x16 ![1] bcast_S16_S1x16_1 : (⟨S16, .i32⟩ : BufTy).Contents (Elt F) → (⟨S1x16, .i32⟩ : BufTy).Contents (Elt F)),
    nullary main_c (constantI S_ 32 224#32),
    unary main_c main_v4 (broadcastInDim S16x1 ![] bcast_S_S16x1 : (⟨S_, .i32⟩ : BufTy).Contents (Elt F) → (⟨S16x1, .i32⟩ : BufTy).Contents (Elt F)),
    binary main_v1 main_v4 main_v5 (muli : (⟨S16x1, .i32⟩ : BufTy).Contents (Elt F) → (⟨S16x1, .i32⟩ : BufTy).Contents (Elt F) → (⟨S16x1, .i32⟩ : BufTy).Contents (Elt F)),
    unary main_v5 main_v6 (broadcastInDim S16x16 ![0, 1] bcast_S16x1_S16x16_0_1 : (⟨S16x1, .i32⟩ : BufTy).Contents (Elt F) → (⟨S16x16, .i32⟩ : BufTy).Contents (Elt F)),
    unary main_v3 main_v7 (broadcastInDim S16x16 ![0, 1] bcast_S1x16_S16x16_0_1 : (⟨S1x16, .i32⟩ : BufTy).Contents (Elt F) → (⟨S16x16, .i32⟩ : BufTy).Contents (Elt F)),
    binary main_v6 main_v7 main_v8 (addi : (⟨S16x16, .i32⟩ : BufTy).Contents (Elt F) → (⟨S16x16, .i32⟩ : BufTy).Contents (Elt F) → (⟨S16x16, .i32⟩ : BufTy).Contents (Elt F)),
    reshape main_v8 main_v9 rfl shapeCasts_S16x16_S256,
    nullary main_c_0 (constantI S_ 32 224#32),
    unary main_c_0 main_v10 (broadcastInDim S128x196 ![] bcast_S_S128x196 : (⟨S_, .i32⟩ : BufTy).Contents (Elt F) → (⟨S128x196, .i32⟩ : BufTy).Contents (Elt F)),
    binary main_arg1 main_v10 main_v11 (muli : (⟨S128x196, .i32⟩ : BufTy).Contents (Elt F) → (⟨S128x196, .i32⟩ : BufTy).Contents (Elt F) → (⟨S128x196, .i32⟩ : BufTy).Contents (Elt F)),
    binary main_v11 main_arg2 main_v12 (addi : (⟨S128x196, .i32⟩ : BufTy).Contents (Elt F) → (⟨S128x196, .i32⟩ : BufTy).Contents (Elt F) → (⟨S128x196, .i32⟩ : BufTy).Contents (Elt F)),
    unary main_v12 main_v13 (broadcastInDim S128x196x1 ![0, 1] bcast_S128x196_S128x196x1_0_1 : (⟨S128x196, .i32⟩ : BufTy).Contents (Elt F) → (⟨S128x196x1, .i32⟩ : BufTy).Contents (Elt F)),
    unary main_v9 main_v14 (broadcastInDim S1x1x256 ![2] bcast_S256_S1x1x256_2 : (⟨S256, .i32⟩ : BufTy).Contents (Elt F) → (⟨S1x1x256, .i32⟩ : BufTy).Contents (Elt F)),
    unary main_v13 main_v15 (broadcastInDim S128x196x256 ![0, 1, 2] bcast_S128x196x1_S128x196x256_0_1_2 : (⟨S128x196x1, .i32⟩ : BufTy).Contents (Elt F) → (⟨S128x196x256, .i32⟩ : BufTy).Contents (Elt F)),
    unary main_v14 main_v16 (broadcastInDim S128x196x256 ![0, 1, 2] bcast_S1x1x256_S128x196x256_0_1_2 : (⟨S1x1x256, .i32⟩ : BufTy).Contents (Elt F) → (⟨S128x196x256, .i32⟩ : BufTy).Contents (Elt F)),
    binary main_v15 main_v16 main_v17 (addi : (⟨S128x196x256, .i32⟩ : BufTy).Contents (Elt F) → (⟨S128x196x256, .i32⟩ : BufTy).Contents (Elt F) → (⟨S128x196x256, .i32⟩ : BufTy).Contents (Elt F)),
    reshape main_v17 main_v18 rfl shapeCasts_S128x196x256_S128x50176,
    reshape main_arg0 main_v19 rfl shapeCasts_S128x3x224x224_S128x3x50176,
    unary main_v18 main_v20 (broadcastInDim S128x1x50176 ![0, 2] bcast_S128x50176_S128x1x50176_0_2 : (⟨S128x50176, .i32⟩ : BufTy).Contents (Elt F) → (⟨S128x1x50176, .i32⟩ : BufTy).Contents (Elt F)) ]

/-- `take_along_axis`. -/
def takeOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S128x1x50176, .i32⟩) main_call0_v0) (broadcastInDim S128x1x50176 ![] bcast_S_S128x1x50176),
    TRef.binary (TRef.of (T := ⟨S128x1x50176, .i32⟩) main_v20) (TRef.of (T := ⟨S128x1x50176, .i32⟩) main_call0_v0) (TRef.of (T := ⟨S128x1x50176, .i1⟩) main_call0_v1) (cmpi .slt),
    TRef.nullary (TRef.of (T := ⟨S_, .i32⟩) main_call0_c_0) (constantI S_ 32 50176#32),
    TRef.unary (TRef.of (T := ⟨S_, .i32⟩) main_call0_c_0) (TRef.of (T := ⟨S128x1x50176, .i32⟩) main_call0_v2) (broadcastInDim S128x1x50176 ![] bcast_S_S128x1x50176),
    TRef.binary (TRef.of (T := ⟨S128x1x50176, .i32⟩) main_v20) (TRef.of (T := ⟨S128x1x50176, .i32⟩) main_call0_v2) (TRef.of (T := ⟨S128x1x50176, .i32⟩) main_call0_v3) addi,
    TRef.ternary (TRef.of (T := ⟨S128x1x50176, .i1⟩) main_call0_v1) (TRef.of (T := ⟨S128x1x50176, .i32⟩) main_call0_v3) (TRef.of (T := ⟨S128x1x50176, .i32⟩) main_v20) (TRef.of (T := ⟨S128x1x50176, .i32⟩) main_call0_v4) select,
    TRef.reshape (TRef.of (T := ⟨S128x1x50176, .i32⟩) main_call0_v4) (TRef.of (T := ⟨S128x50176x1, .i32⟩) main_call0_v5) rfl shapeCasts_S128x1x50176_S128x50176x1,
    TRef.nullary (TRef.of (T := ⟨S1, .i32⟩) main_call0_c_1) (constantI S1 32 50175#32),
    TRef.nullary (TRef.of (T := ⟨S_, .i32⟩) main_call0_c_2) (constantI S_ 32 0#32),
    TRef.unary (TRef.of (T := ⟨S_, .i32⟩) main_call0_c_2) (TRef.of (T := ⟨S128x50176x1, .i32⟩) main_call0_v6) (broadcastInDim S128x50176x1 ![] bcast_S_S128x50176x1),
    TRef.binary (TRef.of (T := ⟨S128x50176x1, .i32⟩) main_call0_v5) (TRef.of (T := ⟨S128x50176x1, .i32⟩) main_call0_v6) (TRef.of (T := ⟨S128x50176x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S128x50176x1, .i32⟩) main_call0_v9) (broadcastInDim S128x50176x1 ![0, 1, 2] bcast_S1x1x1_S128x50176x1_0_1_2),
    TRef.binary (TRef.of (T := ⟨S128x50176x1, .i32⟩) main_call0_v5) (TRef.of (T := ⟨S128x50176x1, .i32⟩) main_call0_v9) (TRef.of (T := ⟨S128x50176x1, .i1⟩) main_call0_v10) (cmpi .sle),
    TRef.binary (TRef.of (T := ⟨S128x50176x1, .i1⟩) main_call0_v7) (TRef.of (T := ⟨S128x50176x1, .i1⟩) main_call0_v10) (TRef.of (T := ⟨S128x50176x1, .i1⟩) main_call0_v11) andi,
    TRef.nullary (TRef.of (T := ⟨S_, .i1⟩) main_call0_c_3) (constantI S_ 1 1#1),
    TRef.binary (TRef.of (T := ⟨S128x50176x1, .i1⟩) main_call0_v11) (TRef.of (T := ⟨S_, .i1⟩) main_call0_c_3) (TRef.of (T := ⟨S128x50176, .i1⟩) main_call0_v12) (fun x v => Host.reduce IntOp.andi x v reducesTo_S128x50176x1_S128x50176_d2 h_S_),
    TRef.binary (TRef.of (T := ⟨S128x3x50176, .f32⟩) main_v19) (TRef.of (T := ⟨S128x50176x1, .i32⟩) main_call0_v5) (TRef.of (T := ⟨S128x3x50176, .f32⟩) main_call0_v13) (fun x i => Host.gather gather_S128x3x50176_S128x50176x1_S128x3x50176_1_2_0_0_2_2_131 x i),
    TRef.unary (TRef.of (T := ⟨S128x50176, .i1⟩) main_call0_v12) (TRef.of (T := ⟨S128x3x50176, .i1⟩) main_call0_v14) (broadcastInDim S128x3x50176 ![0, 2] bcast_S128x50176_S128x3x50176_0_2),
    TRef.nullary (TRef.of (T := ⟨S_, .f32⟩) main_call0_cst) (constant S_ .f32 0x7FC00000#32),
    TRef.unary (TRef.of (T := ⟨S_, .f32⟩) main_call0_cst) (TRef.of (T := ⟨S128x3x50176, .f32⟩) main_call0_v15) (broadcastInDim S128x3x50176 ![] bcast_S_S128x3x50176),
    TRef.ternary (TRef.of (T := ⟨S128x3x50176, .i1⟩) main_call0_v14) (TRef.of (T := ⟨S128x3x50176, .f32⟩) main_call0_v13) (TRef.of (T := ⟨S128x3x50176, .f32⟩) main_call0_v15) (TRef.of (T := ⟨S128x3x50176, .f32⟩) main_v21) select ]

/-- The regrouping per patch. -/
def regroupOps : List (HloOp τ sig (Elt F)) :=
  [ reshape main_v21 main_v22 rfl shapeCasts_S128x3x50176_S128x3x196x256,
    unary main_v22 main_v23 ((transpose S128x196x3x256 [0, 2, 1, 3] · transposes_S128x3x196x256_S128x196x3x256_0_2_1_3) : (⟨S128x3x196x256, .f32⟩ : BufTy).Contents (Elt F) → (⟨S128x196x3x256, .f32⟩ : BufTy).Contents (Elt F)),
    reshape main_v23 main_v24 rfl shapeCasts_S128x196x3x256_S128x196x768 ]

set_option maxRecDepth 8192 in
theorem pre_stretches : (RunP.pre : List (HloOp τ sig (Elt F))) = indexOps ++ (takeOps ++ regroupOps) := rfl

/-- The patch array as the three stretches folded in a row. -/
theorem patches_eq (m : (ℓ : Loc nD τ sig) → Buf (Elt F) ℓ) (c : Dev nD) :
    RunP.patches m c = after regroupOps (after takeOps (after indexOps (launchContents m c))) (Proc.devRef .tc main_v24) := by
  unfold RunP.patches
  rw [pre_stretches, RunP.after_append, RunP.after_append]

end Cert.ReferenceIdeal.Patch

end
-- ==== Proof.PatchesAgree.lean ====
/-
  The kernel's program and the reference compute the SAME patch array.

  Both programs open with the same host operations, stretch by stretch: the gather indices and the flattened pixels,
  `take_along_axis`, the regrouping per patch. Each stretch, folded over ANY buffer contents that agree on what the
  stretch reads, leaves the same value in the buffer the next stretch reads: the two folds evaluate to one term of the
  pure operations. Chained from the launch contents, which agree on the arguments, the two patch arrays are equal.
  (Nothing here is specific to a float family.)
-/
import proofs.«154187_j19387482374262_1_alg».proof.Proof.RefPatches
import proofs.«154187_j19387482374262_1_alg».proof.Proof.KernelHost

noncomputable section

namespace Cert.PatchesAgree

open Idealize.ShloMosaic Idealize.ShloMosaic.TcCoe Idealize.SL.Sem Idealize.ShloMosaic.StableHlo

variable {F : FTy → Type} [FloatOps F]

/-- The flattened pixels. -/
theorem pixels_agree (WK : Valuation Cert.KernelIdeal.τ Cert.KernelIdeal.sig (Elt F)) (WR : Valuation Cert.ReferenceIdeal.τ Cert.ReferenceIdeal.sig (Elt F))
    (h0 : WR (Proc.devRef .tc Cert.ReferenceIdeal.main_arg0) = WK (Proc.devRef .tc Cert.KernelIdeal.main_arg0)) :
    after Cert.ReferenceIdeal.Patch.indexOps WR (Proc.devRef .tc Cert.ReferenceIdeal.main_v19)
      = after Cert.KernelIdeal.Gen.hostOps0 WK (Proc.devRef .tc Cert.KernelIdeal.main_v19) := by
  unfold Cert.ReferenceIdeal.Patch.indexOps
  after_results_simp
  rw [h0]
  rfl

/-- The gather indices. -/
theorem indices_agree (WK : Valuation Cert.KernelIdeal.τ Cert.KernelIdeal.sig (Elt F)) (WR : Valuation Cert.ReferenceIdeal.τ Cert.ReferenceIdeal.sig (Elt F))
    (h1 : WR (Proc.devRef .tc Cert.ReferenceIdeal.main_arg1) = WK (Proc.devRef .tc Cert.KernelIdeal.main_arg1))
    (h2 : WR (Proc.devRef .tc Cert.ReferenceIdeal.main_arg2) = WK (Proc.devRef .tc Cert.KernelIdeal.main_arg2)) :
    after Cert.ReferenceIdeal.Patch.indexOps WR (Proc.devRef .tc Cert.ReferenceIdeal.main_v20)
      = after Cert.KernelIdeal.Gen.hostOps0 WK (Proc.devRef .tc Cert.KernelIdeal.main_v20) := by
  unfold Cert.ReferenceIdeal.Patch.indexOps
  after_results_simp
  rw [h1, h2]
  rfl

/-- The gathered pixels. -/
theorem taken_agree (WK : Valuation Cert.KernelIdeal.τ Cert.KernelIdeal.sig (Elt F)) (WR : Valuation Cert.ReferenceIdeal.τ Cert.ReferenceIdeal.sig (Elt F))
    (h19 : WR (Proc.devRef .tc Cert.ReferenceIdeal.main_v19) = WK (Proc.devRef .tc Cert.KernelIdeal.main_v19))
    (h20 : WR (Proc.devRef .tc Cert.ReferenceIdeal.main_v20) = WK (Proc.devRef .tc Cert.KernelIdeal.main_v20)) :
    after Cert.ReferenceIdeal.Patch.takeOps WR (Proc.devRef .tc Cert.ReferenceIdeal.main_v21)
      = after Cert.KernelIdeal.Gen.hostOps0_1 WK (Proc.devRef .tc Cert.KernelIdeal.main_v21) := by
  unfold Cert.ReferenceIdeal.Patch.takeOps
  after_results_simp
  rw [h19, h20]
  rfl

/-- The patch array. -/
theorem regrouped_agree (WK : Valuation Cert.KernelIdeal.τ Cert.KernelIdeal.sig (Elt F)) (WR : Valuation Cert.ReferenceIdeal.τ Cert.ReferenceIdeal.sig (Elt F))
    (h21 : WR (Proc.devRef .tc Cert.ReferenceIdeal.main_v21) = WK (Proc.devRef .tc Cert.KernelIdeal.main_v21)) :
    after Cert.ReferenceIdeal.Patch.regroupOps WR (Proc.devRef .tc Cert.ReferenceIdeal.main_v24)
      = after Cert.KernelIdeal.Gen.hostOps0_2 WK (Proc.devRef .tc Cert.KernelIdeal.main_v24) := by
  unfold Cert.ReferenceIdeal.Patch.regroupOps
  after_results_simp
  rw [h21]
  rfl

/-- THE TWO PATCH ARRAYS, from memories that agree on the image and the two coordinate arrays. -/
theorem patches_agree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RunP.patches m' c = Cert.KernelIdeal.Gen.V m c Cert.KernelIdeal.main_v24 := by
  rw [Cert.ReferenceIdeal.Patch.patches_eq]
  dsimp only [Cert.KernelIdeal.Gen.V, Cert.KernelIdeal.Gen.V0]
  rw [Cert.KernelIdeal.Host.prefix_stretches, StableHlo.after_append, StableHlo.after_append]
  exact regrouped_agree _ _ (taken_agree _ _ (pixels_agree _ _ h0) (indices_agree _ _ h1 h2))

end Cert.PatchesAgree

end
-- ==== Proof.lean ====
/-
  Off-grid patch embedding: gathered 16×16 image patches projected to 768 features.

  Both programs first build, by the same host operations, the patch array P of shape [128, 196, 768]: for image b and
  patch n, the 3·256 pixels of the 16×16 window whose top-left corner the two coordinate arrays give (gathered from
  the flattened image, out-of-range reads filled), channel-major. They then differ only in how they project:

  * the reference contracts P's last axis with the weight's last axis and adds the bias:
        tokens (b, n, d) = (∑ f, P (b, n, f) · W (d, f)) + bias d ;
  * the kernel flattens P to a [25088, 768] matrix, transposes W, views the bias as a row, and runs a pipelined region
    of 16 grid points, each computing a [1568, 768] row block of (P₂ · Wᵀ) + bias row with the operands rounded to bf16
    on the way into the matrix unit; the result is unflattened to [128, 196, 768].

  Over the extended reals the roundings are the identity and both products are the same plain sums in the same order,
  so the two first results are one function of P, W and the bias (`Cert.PatchProj.tokens`), and the two patch arrays
  are equal because the two host prefixes are the same operations on equal arguments. The second result, the two
  coordinate arrays stacked, is the same two host operations in both programs. No precondition is used beyond the
  memories' agreement on the arguments; the idealization rewrote nothing, so `preserves` is `True`.

  Modules: Projection (the function and its two arrangements), KernelBody (the body's stored value at an index),
  KernelArray (blocks to the whole result array), KernelHost (the staged arrays as the host prefix leaves them),
  KernelRun (the kernel's run, read), RefRun / RefTokens (the reference's run and its last operations at an index),
  RefPatches / PatchesAgree (the two patch arrays are equal).
-/
import proofs.«154187_j19387482374262_1_alg».proof.Defs
import proofs.«154187_j19387482374262_1_alg».proof.Proof.Gen.Kernel
import proofs.«154187_j19387482374262_1_alg».proof.Proof.Gen.Kernel.Skeleton
import proofs.«154187_j19387482374262_1_alg».proof.Proof.Gen.Kernel.Launch
import proofs.«154187_j19387482374262_1_alg».proof.Proof.Gen.Kernel.Points
import proofs.«154187_j19387482374262_1_alg».proof.Proof.Gen.Kernel.Frame
import proofs.«154187_j19387482374262_1_alg».proof.Proof.Gen.KernelIdeal
import proofs.«154187_j19387482374262_1_alg».proof.Proof.Gen.KernelIdeal.Skeleton
import proofs.«154187_j19387482374262_1_alg».proof.Proof.Gen.KernelIdeal.Launch
import proofs.«154187_j19387482374262_1_alg».proof.Proof.Gen.KernelIdeal.Points
import proofs.«154187_j19387482374262_1_alg».proof.Proof.Gen.KernelIdeal.Frame
import proofs.«154187_j19387482374262_1_alg».proof.Proof.Gen.ReferenceIdeal
import proofs.«154187_j19387482374262_1_alg».proof.Proof.Gen.Pre_finite_inputs
import proofs.«154187_j19387482374262_1_alg».proof.Proof.KernelRun
import proofs.«154187_j19387482374262_1_alg».proof.Proof.RefTokens
import proofs.«154187_j19387482374262_1_alg».proof.Proof.PatchesAgree
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The ideal pass rewrote nothing. -/
theorem preserves : Cert.preserves_Kernel_KernelIdeal := trivial

/-- The two idealized programs end with equal results: the tokens of ONE patch array, weight and bias, and the same
    stacked coordinates. -/
theorem algebraic : Cert.algebraic_KernelIdeal_ReferenceIdeal := by
  intro m ρ m' ρ' _ hagree
  refine ⟨fun c => Cert.PatchProj.tokens (Cert.KernelIdeal.Gen.V m c Cert.KernelIdeal.main_v24)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => concatenate Cert.KernelIdeal.S128x196x2 2
      [⟨Cert.KernelIdeal.S128x196x1, broadcastInDim Cert.KernelIdeal.S128x196x1 ![0, 1] Cert.KernelIdeal.Facts₀.bcast_S128x196_S128x196x1_0_1 (m ((c.tc : Thread Cert.KernelIdeal.nD Cert.KernelIdeal.τ).loc Cert.KernelIdeal.main_arg1))⟩,
       ⟨Cert.KernelIdeal.S128x196x1, broadcastInDim Cert.KernelIdeal.S128x196x1 ![0, 1] Cert.KernelIdeal.Facts₀.bcast_S128x196_S128x196x1_0_1 (m ((c.tc : Thread Cert.KernelIdeal.nD Cert.KernelIdeal.τ).loc Cert.KernelIdeal.main_arg2))⟩]
      Cert.KernelIdeal.Facts₀.concatenates_S128x196x1_S128x196x1_S128x196x2_d2,
    Cert.KernelIdeal.Run.run m ρ, ?_⟩
  refine (θ_run Cert.ReferenceIdeal.defs _ _).mono (fun _ h c => ?_) (Cert.ReferenceIdeal.RunP.run (F := Ideal) m' ρ')
  obtain ⟨a0, a1, a2, a3, a4⟩ := hagree c
  refine ⟨(h c).1.trans ?_, (h c).2.1.trans ?_, (h c).2.2⟩
  · rw [Cert.ReferenceIdeal.Tokens.result_eq, Cert.PatchesAgree.patches_agree m m' c a0 a1 a2, a3, a4]
  · rw [a1, a2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
